-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S8x1024 : Shape := ⟨2, ![8, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024 : S_.BroadcastsInDim S1024 (![] : Fin 0 → Fin S1024.rank)
  reducesTo_S1024_S_d0 : S1024.ReducesTo [0] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg1 : IVec S8x4096 32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S8x4096 32 := broadcastInDim S8x4096 ![] bcast_S_S8x4096 main_c_8
  let main_v25 : IVec S8x4096 1 := cmpi .sge main_arg1 main_v24
  let main_c_9 : IVec S_ 32 := constantI S_ 32 20#32
  let main_v26 : IVec S8x4096 32 := broadcastInDim S8x4096 ![] bcast_S_S8x4096 main_c_9
  let main_v27 : IVec S8x4096 1 := cmpi .sle main_arg1 main_v26
  let main_v28 : IVec S8x4096 1 := andi main_v25 main_v27
  let main_c_10 : IVec S_ 1 := constantI S_ 1 1#1
  let main_v29 : IVec S_ 1 := (fun x v => Host.reduce IntOp.andi x v reducesTo_S8x4096_S_d0_1 h_S_) main_v28 main_c_10
  let main_v30 : IVec S_ 1 := andi main_v23 main_v29
  main_v30

def fn {F : FTy → Type} [FloatOps F] (main_arg0 : FVec F S8x4096x1024 .f32) (main_arg1 : IVec S8x4096 32) (main_arg2 : FVec F S8x1024 .f32) (main_arg3 : FVec F S8x1024 .f32) (main_arg4 : FVec F S1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_v13 main_v16
-- ==== Kernel.lean ====
abbrev S8x4096x1024 : Shape := ⟨3, ![8, 4096, 1024]⟩
abbrev S8x4096 : Shape := ⟨2, ![8, 4096]⟩
abbrev S8x1024 : Shape := ⟨2, ![8, 1024]⟩
abbrev S1024 : Shape := ⟨1, ![1024]⟩
abbrev S_ : Shape := ⟨0, ![]⟩
abbrev S20 : Shape := ⟨1, ![20]⟩
abbrev S20x1 : Shape := ⟨2, ![20, 1]⟩
abbrev S20x1024 : Shape := ⟨2, ![20, 1024]⟩
abbrev S1x1024 : Shape := ⟨2, ![1, 1024]⟩
abbrev S21x1024 : Shape := ⟨2, ![21, 1024]⟩
abbrev S21x2048 : Shape := ⟨2, ![21, 2048]⟩
abbrev S32768x1024 : Shape := ⟨2, ![32768, 1024]⟩
abbrev S32768x1 : Shape := ⟨2, ![32768, 1]⟩
abbrev S2048x1024 : Shape := ⟨2, ![2048, 1024]⟩
abbrev S2048x1 : Shape := ⟨2, ![2048, 1]⟩
abbrev S256x21 : Shape := ⟨2, ![256, 21]⟩
abbrev S256x1024 : Shape := ⟨2, ![256, 1024]⟩
abbrev S256x1 : Shape := ⟨2, ![256, 1]⟩
abbrev S256 : Shape := ⟨1, ![256]⟩

abbrev nBuf : Space → Nat
  | .hbm => 45
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8x4096, .i32⟩
  | .hbm, ⟨10, _⟩ => ⟨S8x4096, .i32⟩
  | .hbm, ⟨11, _⟩ => ⟨S_, .i32⟩
  | .hbm, ⟨12, _⟩ => ⟨S8x4096, .i32⟩
  | .hbm, ⟨13, _⟩ => ⟨S8x4096, .i32⟩
  | .hbm, ⟨14, _⟩ => ⟨S20, .i32⟩
  | .hbm, ⟨15, _⟩ => ⟨S_, .i32⟩
  | .hbm, ⟨16, _⟩ => ⟨S20, .i32⟩
  | .hbm, ⟨17, _⟩ => ⟨S20, .i32⟩
  | .hbm, ⟨18, _⟩ => ⟨S_, .i32⟩
  | .hbm, ⟨19, _⟩ => ⟨S20, .i32⟩
  | .hbm, ⟨20, _⟩ => ⟨S20, .i1⟩
  | .hbm, ⟨21, _⟩ => ⟨S_, .i32⟩
  | .hbm, ⟨22, _⟩ => ⟨S20, .i32⟩
  | .hbm, ⟨23, _⟩ => ⟨S20, .i32⟩
  | .hbm, ⟨24, _⟩ => ⟨S20, .i32⟩
  | .hbm, ⟨25, _⟩ => ⟨S20x1, .i32⟩
  | .hbm, ⟨26, _⟩ => ⟨S20x1024, .f32⟩
  | .hbm, ⟨27, _⟩ => ⟨S1x1024, .f32⟩
  | .hbm, ⟨28, _⟩ => ⟨S21x1024, .f32⟩
  | .hbm, ⟨29, _⟩ => ⟨S_, .i32⟩
  | .hbm, ⟨30, _⟩ => ⟨S20, .i32⟩
  | .hbm, ⟨31, _⟩ => ⟨S20, .i1⟩
  | .hbm, ⟨32, _⟩ => ⟨S_, .i32⟩
  | .hbm, ⟨33, _⟩ => ⟨S20, .i32⟩
  | .hbm, ⟨34, _⟩ => ⟨S20, .i32⟩
  | .hbm, ⟨35, _⟩ => ⟨S20, .i32⟩
  | .hbm, ⟨36, _⟩ => ⟨S20x1, .i32⟩
  | .hbm, ⟨37, _⟩ => ⟨S20x1024, .f32⟩
  | .hbm, ⟨38, _⟩ => ⟨S1x1024, .f32⟩
  | .hbm, ⟨39, _⟩ => ⟨S21x1024, .f32⟩
  | .hbm, ⟨40, _⟩ => ⟨S21x2048, .f32⟩
  | .hbm, ⟨41, _⟩ => ⟨S32768x1024, .f32⟩
  | .hbm, ⟨42, _⟩ => ⟨S32768x1, .i32⟩
  | .hbm, ⟨43, _⟩ => ⟨S32768x1024, .f32⟩
  | .hbm, ⟨44, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S21x2048, .f32⟩
  | .local _ .vmem, ⟨5, _⟩ => ⟨S2048x1024, .f32⟩
  | .local _ .vmem, ⟨6, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_c_1 : Ref sig .tc := ⟨.hbm, 15, rfl⟩
abbrev main_v2 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_c_3 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v2 : BitVec 32 := Scalar.muli arg5 c256_i32
  v2
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v2 : BitVec 32 := Scalar.muli arg5 c256_i32
  let v3 : BitVec 32 := v2
  let v4 : Index := Scalar.indexCast v3
  let c0 : Index := 0#32
  ![v4.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v2 : BitVec 32 := Scalar.muli arg5 c256_i32
  let v3 : BitVec 32 := v2
  let v7 : Index := Scalar.indexCast v3
  let c0_1 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S21x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x4096 : S_.BroadcastsInDim S8x4096 (![] : Fin 0 → Fin S8x4096.rank)
  bcast_S_S20 : S_.BroadcastsInDim S20 (![] : Fin 0 → Fin S20.rank)
  bcast_S20_S20x1_0 : S20.BroadcastsInDim S20x1 (![0] : Fin 1 → Fin S20x1.rank)
  bcast_S1024_S1x1024_1 : S1024.BroadcastsInDim S1x1024 (![1] : Fin 1 → Fin S1x1024.rank)
  concatenates_S20x1024_S1x1024_S21x1024_d0 : Shape.Concatenates [S20x1024, S1x1024] S21x1024 0
  concatenates_S21x1024_S21x1024_S21x2048_d1 : Shape.Concatenates [S21x1024, S21x1024] S21x2048 1
  shapeCasts_S8x4096x1024_S32768x1024 : S8x4096x1024.ShapeCasts S32768x1024
  shapeCasts_S8x4096_S32768x1 : S8x4096.ShapeCasts S32768x1
  iota_S256x21_d1_w32 : S256x21.Iotas .tc 32 [1]
  h_S256x1024 : 0 < S256x1024.numel
  shapeCasts_S256x1024_S256x1024 : S256x1024.ShapeCasts S256x1024
  h_S256x1 : 0 < S256x1.numel
  shapeCasts_S256x1_S256x1 : S256x1.ShapeCasts S256x1
  reduces_S256x1024_S256 : S256x1024.Reduces [1] S256
  shapeCasts_S256_S256x1 : S256.ShapeCasts S256x1
  broadcasts_S256x1_S256x1024 : S256x1.Broadcasts S256x1024
  broadcasts_S256x1_S256x21 : S256x1.Broadcasts S256x21
  natLt_1_32 : 1 < 32
  inb_S21x2048_S21x1024_0_0 : ∀ a, (![0, 0] : Fin 2 → Nat) a + S21x1024.size a ≤ S21x2048.size a
  h_S21x1024 : 0 < S21x1024.numel
  shapeCasts_S21x1024_S21x1024 : S21x1024.ShapeCasts S21x1024
  inb_S21x2048_S21x1024_0_1024 : ∀ a, (![0, 1024] : Fin 2 → Nat) a + S21x1024.size a ≤ S21x2048.size a
  shapeCasts_S32768x1024_S8x4096x1024 : S32768x1024.ShapeCasts S8x4096x1024
  gather_S8x1024_S20x1_S20x1024_1_0_n_n_0_1_11024_wf : GatherDims.WF S8x1024 S20x1 S20x1024 [1] [0] [] [0] [] 1 ![1, 1024]
  dot_S256x21_S21x1024_S256x1024_1_0_0_1_n_n_wf : DotDims.WF S256x21 S21x1024 S256x1024 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x1024.size a ≤ S2048x1024.size a
  k0_off2_inb : ∀ k0_t1 : Fin k0_t1_loop.trips, ∀ a, (k0_off2 k0_t1) a + S256x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x2048.size a ≤ S21x2048.size a
  hwx0_2 : ∀ i : grid0.Coords, EltTy.bits .f32 = 32 ∨ (Rect.block (s := S21x2048) S21x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

def gather_S8x1024_S20x1_S20x1024_1_0_n_n_0_1_11024 : GatherDims S8x1024 S20x1 S20x1024 where
  offsetDims := [1]
  collapsedSliceDims := [0]
  operandBatchingDims := []
  startIndicesBatchingDims := []
  startIndexMap := [0]
  indexVectorDim := 1
  sliceSizes := ![1, 1024]
  wf := gather_S8x1024_S20x1_S20x1024_1_0_n_n_0_1_11024_wf
def dot_S256x21_S21x1024_S256x1024_1_0_0_1_n_n : DotDims S256x21 S21x1024 S256x1024 where
  lhsContracting := [1]
  rhsContracting := [0]
  lhsNonContracting := [0]
  rhsNonContracting := [1]
  lhsBatch := []
  rhsBatch := []
  wf := dot_S256x21_S21x1024_S256x1024_1_0_0_1_n_n_wf

abbrev win0_0 : Pipeline.Window sig grid0 :=
  Pipeline.Window.ofSpec (Memref.whole main_v23) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S21x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S8x1024 : Shape := ⟨2, ![8, 1024]⟩
abbrev S1024 : Shape := ⟨1, ![1024]⟩
abbrev S_ : Shape := ⟨0, ![]⟩
abbrev S8x4096x1 : Shape := ⟨3, ![8, 4096, 1]⟩
abbrev S20 : Shape := ⟨1, ![20]⟩
abbrev S20x1 : Shape := ⟨2, ![20, 1]⟩
abbrev S20x1024 : Shape := ⟨2, ![20, 1024]⟩
abbrev S1x1024 : Shape := ⟨2, ![1, 1024]⟩
abbrev S21x1024 : Shape := ⟨2, ![21, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S20, .i32⟩
  | .hbm, ⟨30, _⟩ => ⟨S_, .i32⟩
  | .hbm, ⟨31, _⟩ => ⟨S20, .i32⟩
  | .hbm, ⟨32, _⟩ => ⟨S20, .i32⟩
  | .hbm, ⟨33, _⟩ => ⟨S_, .i32⟩
  | .hbm, ⟨34, _⟩ => ⟨S20, .i32⟩
  | .hbm, ⟨35, _⟩ => ⟨S20, .i1⟩
  | .hbm, ⟨36, _⟩ => ⟨S_, .i32⟩
  | .hbm, ⟨37, _⟩ => ⟨S20, .i32⟩
  | .hbm, ⟨38, _⟩ => ⟨S20, .i32⟩
  | .hbm, ⟨39, _⟩ => ⟨S20, .i32⟩
  | .hbm, ⟨40, _⟩ => ⟨S20x1, .i32⟩
  | .hbm, ⟨41, _⟩ => ⟨S20x1024, .f32⟩
  | .hbm, ⟨42, _⟩ => ⟨S1x1024, .f32⟩
  | .hbm, ⟨43, _⟩ => ⟨S21x1024, .f32⟩
  | .hbm, ⟨44, _⟩ => ⟨S_, .i32⟩
  | .hbm, ⟨45, _⟩ => ⟨S20, .i32⟩
  | .hbm, ⟨46, _⟩ => ⟨S20, .i1⟩
  | .hbm, ⟨47, _⟩ => ⟨S_, .i32⟩
  | .hbm, ⟨48, _⟩ => ⟨S20, .i32⟩
  | .hbm, ⟨49, _⟩ => ⟨S20, .i32⟩
  | .hbm, ⟨50, _⟩ => ⟨S20, .i32⟩
  | .hbm, ⟨51, _⟩ => ⟨S20x1, .i32⟩
  | .hbm, ⟨52, _⟩ => ⟨S20x1024, .f32⟩
  | .hbm, ⟨53, _⟩ => ⟨S1x1024, .f32⟩
  | .hbm, ⟨54, _⟩ => ⟨S21x1024, .f32⟩
  | .hbm, ⟨55, _⟩ => ⟨S_, .i32⟩
  | .hbm, ⟨56, _⟩ => ⟨S8x4096, .i32⟩
  | .hbm, ⟨57, _⟩ => ⟨S8x4096, .i1⟩
  | .hbm, ⟨58, _⟩ => ⟨S_, .i32⟩
  | .hbm, ⟨59, _⟩ => ⟨S8x4096, .i32⟩
  | .hbm, ⟨60, _⟩ => ⟨S8x4096, .i32⟩
  | .hbm, ⟨61, _⟩ => ⟨S8x4096, .i32⟩
  | .hbm, ⟨62, _⟩ => ⟨S8x4096x1, .i32⟩
  | .hbm, ⟨63, _⟩ => ⟨S8x4096x1024, .f32⟩
  | .hbm, ⟨64, _⟩ => ⟨S_, .i32⟩
  | .hbm, ⟨65, _⟩ => ⟨S8x4096, .i32⟩
  | .hbm, ⟨66, _⟩ => ⟨S8x4096, .i1⟩
  | .hbm, ⟨67, _⟩ => ⟨S_, .i32⟩
  | .hbm, ⟨68, _⟩ => ⟨S8x4096, .i32⟩
  | .hbm, ⟨69, _⟩ => ⟨S8x4096, .i32⟩
  | .hbm, ⟨70, _⟩ => ⟨S8x4096, .i32⟩
  | .hbm, ⟨71, _⟩ => ⟨S8x4096x1, .i32⟩
  | .hbm, ⟨72, _⟩ => ⟨S8x4096x1024, .f32⟩
  | .hbm, ⟨73, _⟩ => ⟨S8x4096x1024, .f32⟩
  | .hbm, ⟨74, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S_S20 : S_.BroadcastsInDim S20 (![] : Fin 0 → Fin S20.rank)
  bcast_S20_S20x1_0 : S20.BroadcastsInDim S20x1 (![0] : Fin 1 → Fin S20x1.rank)
  bcast_S1024_S1x1024_1 : S1024.BroadcastsInDim S1x1024 (![1] : Fin 1 → Fin S1x1024.rank)
  concatenates_S20x1024_S1x1024_S21x1024_d0 : Shape.Concatenates [S20x1024, S1x1024] S21x1024 0
  bcast_S_S8x4096 : S_.BroadcastsInDim S8x4096 (![] : Fin 0 → Fin S8x4096.rank)
  gather_S8x1024_S20x1_S20x1024_1_0_n_n_0_1_11024_wf : GatherDims.WF S8x1024 S20x1 S20x1024 [1] [0] [] [0] [] 1 ![1, 1024]
  gather_S21x1024_S8x4096x1_S8x4096x1024_2_0_n_n_0_2_11024_wf : GatherDims.WF S21x1024 S8x4096x1 S8x4096x1024 [2] [0] [] [0] [] 2 ![1, 1024]

variable [Facts₀]

def gather_S8x1024_S20x1_S20x1024_1_0_n_n_0_1_11024 : GatherDims S8x1024 S20x1 S20x1024 where
  offsetDims := [1]
  collapsedSliceDims := [0]
  operandBatchingDims := []
  startIndicesBatchingDims := []
  startIndexMap := [0]
  indexVectorDim := 1
  sliceSizes := ![1, 1024]
  wf := gather_S8x1024_S20x1_S20x1024_1_0_n_n_0_1_11024_wf
def gather_S21x1024_S8x4096x1_S8x4096x1024_2_0_n_n_0_2_11024 : GatherDims S21x1024 S8x4096x1 S8x4096x1024 where
  offsetDims := [2]
  collapsedSliceDims := [0]
  operandBatchingDims := []
  startIndicesBatchingDims := []
  startIndexMap := [0]
  indexVectorDim := 2
  sliceSizes := ![1, 1024]
  wf := gather_S21x1024_S8x4096x1_S8x4096x1024_2_0_n_n_0_2_11024_wf

class Facts : Prop extends Facts₀ where

variable [Facts]
-- ==== Proof.Spec.lean ====
import Idealize.ShloMosaic.PureOps.Ideal

/-!
  One row of a layer normalisation, as functions on extended reals.

  A row is `x : Fin 1024 → EReal`.  Its mean is the sum divided by the row length; the
  variance is taken either in one pass, `E[x²] − mean²` clamped below at zero, or in two
  passes, `E[(x − mean)²]`.  The normalised entry is `(x c − mean) · rsqrt (var + ε)` and the
  output entry scales it by a gain and adds a bias.  The row length and `ε` are kept as the
  32-bit words the programs spell.
-/

noncomputable section

open scoped BigOperators

namespace Cert.LN

open Idealize.ShloMosaic

/-- The row length `1024.0`, as the word both programs divide by. -/
abbrev nWord : EReal := Ideal.ofBits .f32 0x44800000#32
/-- The stabiliser `ε` added to the variance, as the word both programs add. -/
abbrev epsWord : EReal := Ideal.ofBits .f32 0x358637BD#32
/-- The word `+0.0`. -/
abbrev zeroWord : EReal := Ideal.ofBits .f32 0x00000000#32

/-- The mean of a row. -/
def mean (x : Fin 1024 → EReal) : EReal := Ideal.div (∑ k, x k) nWord

/-- The variance in one pass: the mean of the squares less the square of the mean, clamped at zero. -/
def varOnePass (x : Fin 1024 → EReal) : EReal :=
  max (Ideal.div (∑ k, x k * x k) nWord - mean x * mean x) zeroWord

/-- The variance in two passes: the mean of the squared deviations from the mean. -/
def varTwoPass (x : Fin 1024 → EReal) : EReal :=
  Ideal.div (∑ k, (x k - mean x) * (x k - mean x)) nWord

/-- The output entry of a row at column `c`, given the variance `v`, a gain `g` and a bias `b`:
    `(x c − mean) · rsqrt (v + ε) · g + b`. -/
def affine (x : Fin 1024 → EReal) (v g b : EReal) (c : Fin 1024) : EReal :=
  (x c - mean x) * Ideal.rsqrt (v + epsWord) * g + b

end Cert.LN

end
-- ==== Proof.KPayload.lean ====
import proofs.«415538_j38431367364877_3_alg».proof.Proof.Gen.KernelIdeal.Skeleton
import proofs.«415538_j38431367364877_3_alg».proof.Proof.Spec
import Idealize.ShloMosaic.Lib.ValueIdx
import Idealize.ShloMosaic.Lib.Pipeline.Value
import Idealize.ShloMosaic.PureOps.Ideal.Laws

/-!
  One chunk of the kernel body, read at an entry.

  The body takes a chunk `v` of 256 rows, the 256 group ids `g` of those rows, and the two halves
  `W`, `B` of the 21-row parameter table.  Per row `p` it forms the mean and the one-pass variance
  of the row, the normalised entry, and two products of the row's one-hot vector
  `[g p = 0], …, [g p = 20]` with `W` and `B`.  At entry `(p, q)` the result is

    `(v p q − mean) · rsqrt (var + ε) · (Σ_k [g p = k] · W k q) + Σ_k [g p = k] · B k q`.
-/

set_option maxRecDepth 16384

noncomputable section

open scoped BigOperators

namespace Cert.KernelIdeal.Pay

open Cert.KernelIdeal Cert.KernelIdeal.Gen Idealize.ShloMosaic Idealize.ShloMosaic.ValueIdx

/-- The lane counter along the 21 table rows reads its column number. -/
theorem iota_at (p : Fin 256) (k : Fin 21) :
    iota .tc S256x21 32 [1] iota_S256x21_d1_w32 (ix2 p k) = BitVec.ofNat 32 k.val :=
  iota_single_apply .tc S256x21 32 1 iota_S256x21_d1_w32 (ix2 p k)

/-- A column spread over 1024 lanes reads the column's entry of the row. -/
theorem spread_col {α : Type} (col : S256x1.Idx → α) (p : Fin 256) (q : Fin 1024) :
    broadcastTo S256x1024 col broadcasts_S256x1_S256x1024 (ix2 p q) = col (ix2 p 0) :=
  broadcastTo_apply col broadcasts_S256x1_S256x1024 (ix2 p q) (ix2 p 0) (fun a => match a with
    | ⟨0, _⟩ => by show p.val = if (256 : Nat) = 1 then 0 else p.val; rw [if_neg (by decide)]
    | ⟨1, _⟩ => by show (0 : Nat) = if (1 : Nat) = 1 then 0 else q.val; rw [if_pos rfl])

/-- A column spread over 21 lanes reads the column's entry of the row. -/
theorem spread_col21 {α : Type} (col : S256x1.Idx → α) (p : Fin 256) (k : Fin 21) :
    broadcastTo S256x21 col broadcasts_S256x1_S256x21 (ix2 p k) = col (ix2 p 0) :=
  broadcastTo_apply col broadcasts_S256x1_S256x21 (ix2 p k) (ix2 p 0) (fun a => match a with
    | ⟨0, _⟩ => by show p.val = if (256 : Nat) = 1 then 0 else p.val; rw [if_neg (by decide)]
    | ⟨1, _⟩ => by show (0 : Nat) = if (1 : Nat) = 1 then 0 else k.val; rw [if_pos rfl])

/-- A vector of 256 row values kept as a column reads the row's value. -/
theorem keep_col {α : Type} (r : S256.Idx → α) (p : Fin 256) :
    shapeCast S256x1 r shapeCasts_S256_S256x1 (ix2 p 0) = r (ix1 p) :=
  shapeCast_apply r shapeCasts_S256_S256x1 (ix2 p 0) (ix1 p) (by
    rw [Shape.rowMajor_val_one, Shape.rowMajor_val_two]
    show p.val = p.val * 1 + 0
    omega)

/-- The lane sum of a chunk at row `p` is the sum of the row's 1024 entries. -/
theorem row_sum (v : FVec Ideal S256x1024 .f32) (hφ : FKind.Formats .f32)
    (hacc : (0x00000000#32 : BitVec 32) = FKind.add.neutral .f32 hφ) (p : Fin 256) :
    multiReduction .add [1] S256 v 0x00000000#32 reduces_S256x1024_S256 hφ hacc (ix1 p)
      = ∑ k : Fin 1024, v (ix2 p k) := by
  refine (Ideal.multiReduction_add_single v 0x00000000#32 reduces_S256x1024_S256 hφ hacc (ix1 p)).trans ?_
  refine Finset.sum_congr rfl fun k _ => ?_
  exact congrArg v (funext fun a => Fin.ext (by match a with | ⟨0, _⟩ => rfl | ⟨1, _⟩ => rfl))

/-- The product of a 256×21 matrix with a 21×1024 matrix into a zero accumulator, at an entry. -/
theorem matmul_at (A : FVec Ideal S256x21 .f32) (B : FVec Ideal S21x1024 .f32) (p : Fin 256) (q : Fin 1024) :
    matmul dot_S256x21_S21x1024_S256x1024_1_0_0_1_n_n (some .fp32) A B (constant S256x1024 .f32 0x00000000#32) (ix2 p q)
      = ∑ k : Fin 21, A (ix2 p k) * B (ix2 k q) := by
  show FloatOps.matmul dot_S256x21_S21x1024_S256x1024_1_0_0_1_n_n (some .fp32) A B (constant S256x1024 .f32 0x00000000#32) (ix2 p q) = _
  rw [Ideal.matmul_constant_zero_apply,
    ← Equiv.sum_comp (contrEquiv1 dot_S256x21_S21x1024_S256x1024_1_0_0_1_n_n 21 rfl rfl).symm]
  refine Finset.sum_congr rfl fun c _ => ?_
  have c2 := contrEquiv1_symm_val dot_S256x21_S21x1024_S256x1024_1_0_0_1_n_n 21 rfl rfl c
  have l2 : dot_S256x21_S21x1024_S256x1024_1_0_0_1_n_n.lhsIdx (ix2 p q)
      ((contrEquiv1 dot_S256x21_S21x1024_S256x1024_1_0_0_1_n_n 21 rfl rfl).symm c) = ix2 p c := by
    funext ax; apply Fin.ext
    match ax with
    | ⟨0, _⟩ => simp [DotDims.lhsIdx, dot_S256x21_S21x1024_S256x1024_1_0_0_1_n_n]; rfl
    | ⟨1, _⟩ => simp [DotDims.lhsIdx, dot_S256x21_S21x1024_S256x1024_1_0_0_1_n_n]; exact c2
  have r2 : dot_S256x21_S21x1024_S256x1024_1_0_0_1_n_n.rhsIdx (ix2 p q)
      ((contrEquiv1 dot_S256x21_S21x1024_S256x1024_1_0_0_1_n_n 21 rfl rfl).symm c) = ix2 c q := by
    funext ax; apply Fin.ext
    match ax with
    | ⟨0, _⟩ => simp [DotDims.rhsIdx, dot_S256x21_S21x1024_S256x1024_1_0_0_1_n_n]; exact c2
    | ⟨1, _⟩ => simp [DotDims.rhsIdx, dot_S256x21_S21x1024_S256x1024_1_0_0_1_n_n]; rfl
  rw [l2, r2]

/-- A one-bit comparison widened to a word and converted to a float is `1` or `0`. -/
theorem onehot_word (a b : BitVec 32) :
    FloatOps.sitofp (F := Ideal) .f32 ((IntOp.cmpi .eq a b).setWidth 32) = if a = b then (1 : EReal) else 0 := by
  by_cases h : a = b
  · rw [if_pos h, IntOp.cmpi_eq.2 h]
    show (((1#1 : BitVec 1).setWidth 32).toInt : ℝ) = ((1 : ℝ) : EReal)
    norm_num
  · rw [if_neg h]
    have h0 : IntOp.cmpi .eq a b = 0#1 := by
      rcases BitVec.eq_zero_or_eq_one (IntOp.cmpi .eq a b) with h0 | h1
      · exact h0
      · exact absurd (IntOp.cmpi_eq.1 h1) h
    rw [h0]
    show (((0#1 : BitVec 1).setWidth 32).toInt : ℝ) = ((0 : ℝ) : EReal)
    norm_num

/-- The one-hot matrix of a chunk at row `p`, column `k`: `1` when the row's group id is `k`, else `0`. -/
theorem onehot_at (g : Vec Ideal S256x1 .i32) (p : Fin 256) (k : Fin 21) :
    (sitofp .f32 (extui 32 (cmpi .eq (broadcastTo S256x21 g broadcasts_S256x1_S256x21)
      (iota .tc S256x21 32 [1] iota_S256x21_d1_w32)) natLt_1_32) : FVec Ideal S256x21 .f32) (ix2 p k)
      = if g (ix2 p 0) = BitVec.ofNat 32 k.val then (1 : EReal) else 0 := by
  show FloatOps.sitofp (F := Ideal) .f32 ((IntOp.cmpi .eq (broadcastTo S256x21 g broadcasts_S256x1_S256x21 (ix2 p k))
    (iota .tc S256x21 32 [1] iota_S256x21_d1_w32 (ix2 p k))).setWidth 32) = _
  rw [spread_col21, iota_at, onehot_word]

/-- The mean column of a chunk at row `p`: the row's sum over the row length. -/
theorem mean_col (v : FVec Ideal S256x1024 .f32) (hφ : FKind.Formats .f32)
    (hacc : (0x00000000#32 : BitVec 32) = FKind.add.neutral .f32 hφ) (p : Fin 256) :
    (divf (shapeCast S256x1 (multiReduction .add [1] S256 v 0x00000000#32 reduces_S256x1024_S256 hφ hacc) shapeCasts_S256_S256x1)
      (broadcast S256x1 (FloatOps.ofBits .f32 0x44800000#32)) : FVec Ideal S256x1 .f32) (ix2 p 0)
      = Cert.LN.mean fun k => v (ix2 p k) := by
  show Ideal.div (shapeCast S256x1 (multiReduction .add [1] S256 v 0x00000000#32 reduces_S256x1024_S256 hφ hacc)
    shapeCasts_S256_S256x1 (ix2 p 0)) (Ideal.ofBits .f32 0x44800000#32) = _
  rw [keep_col, row_sum]
  rfl

/-- The column of reciprocal standard deviations of a chunk at row `p`. -/
theorem rstd_col (v : FVec Ideal S256x1024 .f32) (hφ : FKind.Formats .f32)
    (hacc : (0x00000000#32 : BitVec 32) = FKind.add.neutral .f32 hφ) (μ : FVec Ideal S256x1 .f32) (p : Fin 256)
    (hμ : μ (ix2 p 0) = Cert.LN.mean fun k => v (ix2 p k)) :
    (rsqrt (addf (maximumf (subf
        (divf (shapeCast S256x1 (multiReduction .add [1] S256 (mulf v v) 0x00000000#32 reduces_S256x1024_S256 hφ hacc) shapeCasts_S256_S256x1)
          (broadcast S256x1 (FloatOps.ofBits .f32 0x44800000#32)))
        (mulf μ μ)) (broadcast S256x1 (FloatOps.ofBits .f32 0x00000000#32)))
      (broadcast S256x1 (FloatOps.ofBits .f32 0x358637BD#32))) : FVec Ideal S256x1 .f32) (ix2 p 0)
      = Ideal.rsqrt (Cert.LN.varOnePass (fun k => v (ix2 p k)) + Cert.LN.epsWord) := by
  show Ideal.rsqrt (max (Ideal.div (shapeCast S256x1 (multiReduction .add [1] S256 (mulf v v) 0x00000000#32 reduces_S256x1024_S256 hφ hacc)
    shapeCasts_S256_S256x1 (ix2 p 0)) (Ideal.ofBits .f32 0x44800000#32) - μ (ix2 p 0) * μ (ix2 p 0))
      (Ideal.ofBits .f32 0x00000000#32) + Ideal.ofBits .f32 0x358637BD#32) = _
  rw [keep_col, row_sum, hμ]
  rfl

/-- The pointwise shell of the chunk: a column subtracted, a column multiplied, a matrix multiplied, a matrix added. -/
theorem shell (v : FVec Ideal S256x1024 .f32) (μ ρ : FVec Ideal S256x1 .f32) (Gm Bm : FVec Ideal S256x1024 .f32)
    (p : Fin 256) (q : Fin 1024) :
    addf (mulf (mulf (subf v (broadcastTo S256x1024 μ broadcasts_S256x1_S256x1024))
        (broadcastTo S256x1024 ρ broadcasts_S256x1_S256x1024)) Gm) Bm (ix2 p q)
      = (v (ix2 p q) - μ (ix2 p 0)) * ρ (ix2 p 0) * Gm (ix2 p q) + Bm (ix2 p q) := by
  show (v (ix2 p q) - broadcastTo S256x1024 μ broadcasts_S256x1_S256x1024 (ix2 p q))
    * broadcastTo S256x1024 ρ broadcasts_S256x1_S256x1024 (ix2 p q) * Gm (ix2 p q) + Bm (ix2 p q) = _
  rw [spread_col, spread_col]

/-- A product of the chunk's one-hot matrix with a 21-row table, at an entry. -/
theorem select_at (g : Vec Ideal S256x1 .i32) (T : FVec Ideal S21x1024 .f32) (p : Fin 256) (q : Fin 1024) :
    matmul dot_S256x21_S21x1024_S256x1024_1_0_0_1_n_n (some .fp32)
      (sitofp .f32 (extui 32 (cmpi .eq (broadcastTo S256x21 g broadcasts_S256x1_S256x21)
        (iota .tc S256x21 32 [1] iota_S256x21_d1_w32)) natLt_1_32) : FVec Ideal S256x21 .f32)
      T (constant S256x1024 .f32 0x00000000#32) (ix2 p q)
      = ∑ k : Fin 21, (if g (ix2 p 0) = BitVec.ofNat 32 k.val then (1 : EReal) else 0) * T (ix2 k q) :=
  (matmul_at _ T p q).trans (Finset.sum_congr rfl fun k _ => by rw [onehot_at])

/-- The chunk's result at entry `(p, q)`. -/
theorem pay_apply (v : Vec Ideal S256x1024 .f32) (g : Vec Ideal S256x1 .i32) (W B : Vec Ideal S21x1024 .f32)
    (p : Fin 256) (q : Fin 1024) :
    k0_pay1 (F := Ideal) (iota .tc S256x21 32 [1] iota_S256x21_d1_w32) v g W B (ix2 p q)
      = Cert.LN.affine (fun k => v (ix2 p k)) (Cert.LN.varOnePass fun k => v (ix2 p k))
          (∑ k : Fin 21, (if g (ix2 p 0) = BitVec.ofNat 32 k.val then (1 : EReal) else 0) * W (ix2 k q))
          (∑ k : Fin 21, (if g (ix2 p 0) = BitVec.ofNat 32 k.val then (1 : EReal) else 0) * B (ix2 k q)) q := by
  unfold k0_pay1
  simp only [shapeCast_self]
  refine (shell _ _ _ _ _ p q).trans ?_
  unfold Cert.LN.affine
  refine congrArg₂ (· + ·) (congrArg₂ (· * ·) (congrArg₂ (· * ·) (congrArg₂ (· - ·) rfl ?_) ?_) ?_) ?_
  · exact mean_col v _ _ p
  · exact rstd_col v _ _ _ p (mean_col v _ _ p)
  · exact select_at g W p q
  · exact select_at g B p q

end Cert.KernelIdeal.Pay

end
-- ==== Proof.KPieces.lean ====
import proofs.«415538_j38431367364877_3_alg».proof.Proof.Gen.KernelIdeal.Frame
import proofs.«415538_j38431367364877_3_alg».proof.Proof.KPayload
import Idealize.ShloMosaic.Lib.Pipeline.Value

/-!
  What one call of the kernel body leaves in its output block.

  The body walks its 2048-row block in eight chunks of 256 rows; chunk `k` reads rows
  `256 k … 256 k + 255` of the input block and of the id column, reads the two halves of the table,
  and stores the chunk's result at the same rows of the output block.  A row's result depends only
  on that row, so the eight stores are the eight row-ranges of ONE function of the three input
  blocks, `blockOut`; together they tile the block, so the block ends holding `blockOut`.
-/

set_option maxRecDepth 16384

noncomputable section

open scoped BigOperators

namespace Cert.KernelIdeal.Blk

open Cert.KernelIdeal Cert.KernelIdeal.Gen Cert.KernelIdeal.Pay Idealize.ShloMosaic Idealize.ShloMosaic.ValueIdx
open Idealize.ShloMosaic.TcCoe Idealize.SL.Sem

/-- Entry `(r, q)` of the output block as a function of the input block `x0`, the id column `x1` and
    the table `x2` (gains in columns 0–1023, biases in columns 1024–2047). -/
def blockAt (x0 : Vec Ideal S2048x1024 .f32) (x1 : Vec Ideal S2048x1 .i32) (x2 : Vec Ideal S21x2048 .f32)
    (r : Fin 2048) (q : Fin 1024) : EReal :=
  Cert.LN.affine (fun c => x0 (ix2 r c)) (Cert.LN.varOnePass fun c => x0 (ix2 r c))
    (∑ k : Fin 21, (if x1 (ix2 r 0) = BitVec.ofNat 32 k.val then (1 : EReal) else 0)
      * x2 (ix2 k (⟨q.val, by omega⟩ : Fin 2048)))
    (∑ k : Fin 21, (if x1 (ix2 r 0) = BitVec.ofNat 32 k.val then (1 : EReal) else 0)
      * x2 (ix2 k (⟨1024 + q.val, by omega⟩ : Fin 2048))) q

/-- The output block as one function of the three input blocks. -/
def blockOut (x0 : Vec Ideal S2048x1024 .f32) (x1 : Vec Ideal S2048x1 .i32) (x2 : Vec Ideal S21x2048 .f32) :
    Vec Ideal S2048x1024 .f32 :=
  fun y => blockAt x0 x1 x2 ⟨(y 0).val, idx2_lt0 y⟩ ⟨(y 1).val, idx2_lt1 y⟩

/-- The loop runs eight trips. -/
theorem trips_eq : k0_t1_loop.trips = 8 := by decide

variable (c : Dev nD) (i : grid0.Coords)
  (arg1 : Memref sig .tc .vmem S2048x1024 .f32) (harg1 : arg1.IsWhole)
  (arg2 : Memref sig .tc .vmem S2048x1 .i32) (harg2 : arg2.IsWhole)
  (arg3 : Memref sig .tc .vmem S21x2048 .f32) (harg3 : arg3.IsWhole)
  (arg4 : Memref sig .tc .vmem S2048x1024 .f32) (harg4 : arg4.IsWhole)
  (x0 : Vec Ideal S2048x1024 .f32) (x1 : Vec Ideal S2048x1 .i32) (x2 : Vec Ideal S21x2048 .f32)

/-- The stores of one run of the body: those of the eight trips, the last trip's first. -/
theorem run_pieces :
    (kernelRun0_A (F := Ideal) c i arg1 harg1 arg2 harg2 arg3 harg3 arg4 harg4 x0 x1 x2).1
      = pb_k0_t1 (F := Ideal) Variants.none c none i arg1 harg1 arg2 harg2 arg3 harg3 arg4 harg4
          (iota .tc S256x21 32 [1] iota_S256x21_d1_w32) (harg1.unread x0) (harg2.unread x1) (harg3.unread x2) 8 := by
  unfold kernelRun0_A
  rfl

/-- The one store of trip `k`: at the trip's 256 rows, the chunk result of the loads at those rows. -/
theorem trip_pieces (k : Fin k0_t1_loop.trips) :
    tripL_k0_t1 (F := Ideal) Variants.none c none i arg1 harg1 arg2 harg2 arg3 harg3 arg4 harg4
        (iota .tc S256x21 32 [1] iota_S256x21_d1_w32) (harg1.unread x0) (harg2.unread x1) (harg3.unread x2) k
      = [⟨Rect.unit (k0_off1 k) S256x1024.size (k0_off1_inb k),
          k0_pay1 (F := Ideal) (iota .tc S256x21 32 [1] iota_S256x21_d1_w32)
            (View.ld x0 (Rect.unit (k0_off1 k) S256x1024.size (k0_off1_inb k)))
            (View.ld x1 (Rect.unit (k0_off2 k) S256x1.size (k0_off2_inb k)))
            (View.ld x2 (Rect.unit ![0, 0] S21x1024.size inb_S21x2048_S21x1024_0_0))
            (View.ld x2 (Rect.unit ![0, 1024] S21x1024.size inb_S21x2048_S21x1024_0_1024))⟩] := by
  unfold tripL_k0_t1 trip_k0_t1
  dsimp only
  simp only [View.readAt_eq_ld, Memref.IsWhole.read_unread]

/-- Chunk `k`'s result at its entry `(p, q)` is entry `(r, q)` of `blockOut`'s rows, `r` the chunk's row `p`
    counted in the block: the chunk's loads read row `r` of the input block and of the id column, and the two
    halves of the table. -/
theorem trip_agrees (k : Fin k0_t1_loop.trips) (p : Fin 256) (q q' : Fin 1024) (r : Fin 2048)
    (hr : r.val = (k0_off1 k) 0 + p.val) (hq : q'.val = q.val) :
    k0_pay1 (F := Ideal) (iota .tc S256x21 32 [1] iota_S256x21_d1_w32)
        (View.ld x0 (Rect.unit (k0_off1 k) S256x1024.size (k0_off1_inb k)))
        (View.ld x1 (Rect.unit (k0_off2 k) S256x1.size (k0_off2_inb k)))
        (View.ld x2 (Rect.unit ![0, 0] S21x1024.size inb_S21x2048_S21x1024_0_0))
        (View.ld x2 (Rect.unit ![0, 1024] S21x1024.size inb_S21x2048_S21x1024_0_1024)) (ix2 p q)
      = blockAt x0 x1 x2 r q' := by
  obtain rfl : q' = q := Fin.ext hq
  rw [pay_apply]
  unfold blockAt
  have h0 : ∀ c' : Fin 1024, View.ld x0 (Rect.unit (k0_off1 k) S256x1024.size (k0_off1_inb k)) (ix2 p c') = x0 (ix2 r c') :=
    fun c' => congrArg x0 (funext fun a => Fin.ext (by
      match a with
      | ⟨0, _⟩ => show (k0_off1 k) 0 + 1 * p.val = r.val; omega
      | ⟨1, _⟩ => show 0 + 1 * c'.val = c'.val; omega))
  have h1 : View.ld x1 (Rect.unit (k0_off2 k) S256x1.size (k0_off2_inb k)) (ix2 p 0) = x1 (ix2 r 0) :=
    congrArg x1 (funext fun a => Fin.ext (by
      match a with
      | ⟨0, _⟩ => show (k0_off1 k) 0 + 1 * p.val = r.val; omega
      | ⟨1, _⟩ => show 0 + 1 * 0 = 0; omega))
  have h2 : ∀ k' : Fin 21, View.ld x2 (Rect.unit ![0, 0] S21x1024.size inb_S21x2048_S21x1024_0_0) (ix2 k' q')
      = x2 (ix2 k' (⟨q'.val, by omega⟩ : Fin 2048)) :=
    fun k' => congrArg x2 (funext fun a => Fin.ext (by
      match a with
      | ⟨0, _⟩ => show 0 + 1 * k'.val = k'.val; omega
      | ⟨1, _⟩ => show 0 + 1 * q'.val = q'.val; omega))
  have h3 : ∀ k' : Fin 21, View.ld x2 (Rect.unit ![0, 1024] S21x1024.size inb_S21x2048_S21x1024_0_1024) (ix2 k' q')
      = x2 (ix2 k' (⟨1024 + q'.val, by omega⟩ : Fin 2048)) :=
    fun k' => congrArg x2 (funext fun a => Fin.ext (by
      match a with
      | ⟨0, _⟩ => show 0 + 1 * k'.val = k'.val; omega
      | ⟨1, _⟩ => show 1024 + 1 * q'.val = 1024 + q'.val; omega))
  simp only [h0, h1, h2, h3]

/-- Every store of the first `n` trips agrees with `blockOut` on its rows. -/
theorem pieces_agree : ∀ n : ℕ, n ≤ 8 →
    ∀ pc ∈ pb_k0_t1 (F := Ideal) Variants.none c none i arg1 harg1 arg2 harg2 arg3 harg3 arg4 harg4
        (iota .tc S256x21 32 [1] iota_S256x21_d1_w32) (harg1.unread x0) (harg2.unread x1) (harg3.unread x2) n,
      ∀ x : pc.1.shape.Idx, pc.2 x = blockOut x0 x1 x2 (pc.1.emb x)
  | 0, _, pc, hpc, _ => by
    rw [pb_k0_t1.eq_1] at hpc
    exact absurd hpc List.not_mem_nil
  | n + 1, hn, pc, hpc, x => by
    have hlt : n < k0_t1_loop.trips := by rw [trips_eq]; omega
    have e := pb_k0_t1_succ (F := Ideal) Variants.none c none i arg1 harg1 arg2 harg2 arg3 harg3 arg4 harg4
      (iota .tc S256x21 32 [1] iota_S256x21_d1_w32) (harg1.unread x0) (harg2.unread x1) (harg3.unread x2) ⟨n, hlt⟩
    rw [show (⟨n, hlt⟩ : Fin k0_t1_loop.trips).val + 1 = n + 1 from rfl] at e
    rw [e, List.mem_append] at hpc
    rcases hpc with hpc | hpc
    · rw [trip_pieces, List.mem_singleton] at hpc
      subst hpc
      obtain ⟨p, q, rfl⟩ : ∃ (p : Fin 256) (q : Fin 1024), x = ix2 p q := ⟨x 0, x 1, eq_ix2 x⟩
      exact trip_agrees x0 x1 x2 ⟨n, hlt⟩ p q _ _
        (by show (k0_off1 ⟨n, hlt⟩) 0 + 1 * p.val = (k0_off1 ⟨n, hlt⟩) 0 + p.val; omega)
        (by show 0 + 1 * q.val = q.val; omega)
    · exact pieces_agree n (by omega) pc hpc x

/-- One run of the body leaves `blockOut` of its three input blocks in the output block. -/
theorem out_block :
    out0_A_3 (F := Ideal) c i arg1 harg1 arg2 harg2 arg3 harg3 arg4 harg4 x0 x1 x2 = blockOut x0 x1 x2 := by
  unfold out0_A_3
  rw [View.read_writes_eq_canon _ _ _ (cover0_A_3 (F := Ideal) c i arg1 harg1 arg2 harg2 arg3 harg3 arg4 harg4 x0 x1 x2)]
  funext y
  refine View.canon_apply_of_pieces (blockOut x0 x1 x2) _ ?_ y
    (cover0_A_3 (F := Ideal) c i arg1 harg1 arg2 harg2 arg3 harg3 arg4 harg4 x0 x1 x2 y)
  rw [run_pieces]
  exact pieces_agree c i arg1 harg1 arg2 harg2 arg3 harg3 arg4 harg4 x0 x1 x2 8 (le_refl 8)

end Cert.KernelIdeal.Blk

end
-- ==== Proof.KArray.lean ====
import proofs.«415538_j38431367364877_3_alg».proof.Proof.Gen.KernelIdeal.Frame
import proofs.«415538_j38431367364877_3_alg».proof.Proof.KPieces
import Idealize.ShloMosaic.Lib.Pipeline.Value
import Idealize.ShloMosaic.Lib.StableHlo.Run

/-!
  From the sixteen output blocks to the result array.

  Grid point `t` takes rows `2048 t … 2048 t + 2047` of the flattened input and of the id column,
  and the whole table, and writes back rows `2048 t … 2048 t + 2047` of the flattened output.
  A row's result depends only on that row, so what point `t` writes back is the block of rows of
  ONE function of the three arrays, `arrOut`; the sixteen blocks tile the array, so it ends holding
  `arrOut`.
-/

set_option maxRecDepth 16384

noncomputable section

open scoped BigOperators

namespace Cert.KernelIdeal.Arr

open Cert.KernelIdeal Cert.KernelIdeal.Gen Cert.KernelIdeal.Blk Idealize.ShloMosaic Idealize.ShloMosaic.ValueIdx
open Idealize.ShloMosaic.TcCoe Idealize.SL.Sem
open Idealize.ShloMosaic.Pipeline (Dat)

/-- Entry `(r, q)` of the flattened output as a function of the flattened input `X`, the id column `G` and the
    table `T` (gains in columns 0–1023, biases in columns 1024–2047). -/
def arrAt (X : Vec Ideal S32768x1024 .f32) (G : Vec Ideal S32768x1 .i32) (T : Vec Ideal S21x2048 .f32)
    (r : Fin 32768) (q : Fin 1024) : EReal :=
  Cert.LN.affine (fun c => X (ix2 r c)) (Cert.LN.varOnePass fun c => X (ix2 r c))
    (∑ k : Fin 21, (if G (ix2 r 0) = BitVec.ofNat 32 k.val then (1 : EReal) else 0)
      * T (ix2 k (⟨q.val, by omega⟩ : Fin 2048)))
    (∑ k : Fin 21, (if G (ix2 r 0) = BitVec.ofNat 32 k.val then (1 : EReal) else 0)
      * T (ix2 k (⟨1024 + q.val, by omega⟩ : Fin 2048))) q

/-- The flattened output as one function of the three arrays. -/
def arrOut (X : Vec Ideal S32768x1024 .f32) (G : Vec Ideal S32768x1 .i32) (T : Vec Ideal S21x2048 .f32) :
    Vec Ideal S32768x1024 .f32 :=
  fun y => arrAt X G T ⟨(y 0).val, idx2_lt0 y⟩ ⟨(y 1).val, idx2_lt1 y⟩

/-- A block's entry is the array's entry when the block's row is the array's row and the tables agree. -/
theorem rows_congr (x0 : Vec Ideal S2048x1024 .f32) (x1 : Vec Ideal S2048x1 .i32) (x2 : Vec Ideal S21x2048 .f32)
    (X : Vec Ideal S32768x1024 .f32) (G : Vec Ideal S32768x1 .i32) (T : Vec Ideal S21x2048 .f32)
    (r : Fin 2048) (R : Fin 32768) (q q' : Fin 1024) (hq : q = q')
    (h0 : ∀ c' : Fin 1024, x0 (ix2 r c') = X (ix2 R c')) (h1 : x1 (ix2 r 0) = G (ix2 R 0))
    (h2 : ∀ (k : Fin 21) (z : Fin 2048), x2 (ix2 k z) = T (ix2 k z)) :
    blockAt x0 x1 x2 r q = arrAt X G T R q' := by
  subst hq
  unfold blockAt arrAt
  simp only [h0, h1, h2]

/-- The printed index maps, decided over the grid: the input and id blocks move with the output block along the
    rows, nothing moves along the columns, the table's block stays. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 15 :=
  (by decide +kernel : ∀ t : Fin grid0.N, _)

/-- Every row block of the output is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

variable (m : (ℓ : Loc nD τ sig) → Buf (Elt Ideal) ℓ) (ρ : Dev nD → PrngReg)

/-- The three arrays as the region finds them, at their literal types. -/
abbrev Xarr (c : Dev nD) : Vec Ideal S32768x1024 .f32 := V m c main_v23
abbrev Garr (c : Dev nD) : Vec Ideal S32768x1 .i32 := V m c main_v24
abbrev Tarr (c : Dev nD) : Vec Ideal S21x2048 .f32 := V m c main_v22
/-- The three input blocks at a point, at their literal types. -/
abbrev xblk (c : Dev nD) (t : Fin cfg0.N) : Vec Ideal S2048x1024 .f32 := iblk m c 0 t
abbrev gblk (c : Dev nD) (t : Fin cfg0.N) : Vec Ideal S2048x1 .i32 := iblk m c 1 t
abbrev tblk (c : Dev nD) (t : Fin cfg0.N) : Vec Ideal S21x2048 .f32 := iblk m c 2 t

/-- The input block at point `t` is rows `2048 t' …` of the flattened input, `t'` the output's row-block index. -/
theorem xblk_apply (c : Dev nD) (t : Fin cfg0.N) (x : S2048x1024.Idx) (k : S32768x1024.Idx)
    (hk0 : (k 0).val = win0_3.index t (0 : Fin 2) * 2048 + (x 0).val) (hk1 : (k 1).val = (x 1).val) :
    xblk m c t x = Xarr m c k := by
  obtain ⟨e0, e1, -, -, -, -, -, -⟩ := idx_facts t
  unfold xblk Xarr iblk
  rw [View.read_apply]
  show V m c main_v23 _ = V m c main_v23 _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 1024 + 1 * (x 1).val = (k 1).val; rw [e1, hk1]; omega

/-- The id block at point `t` is the same rows of the id column. -/
theorem gblk_apply (c : Dev nD) (t : Fin cfg0.N) (x : S2048x1.Idx) (k : S32768x1.Idx)
    (hk0 : (k 0).val = win0_3.index t (0 : Fin 2) * 2048 + (x 0).val) (hk1 : (k 1).val = (x 1).val) :
    gblk m c t x = Garr m c k := by
  obtain ⟨-, -, e0, e1, -, -, -, -⟩ := idx_facts t
  unfold gblk Garr iblk
  rw [View.read_apply]
  show V m c main_v24 _ = V m c main_v24 _
  congr 1
  funext a
  apply Fin.ext
  match a with
  | ⟨0, _⟩ => show win0_1.index t (0 : Fin 2) * 2048 + 1 * (x 0).val = (k 0).val; rw [e0, hk0]; omega
  | ⟨1, _⟩ => show win0_1.index t (1 : Fin 2) * 1 + 1 * (x 1).val = (k 1).val; rw [e1, hk1]; omega

/-- The table's block at every point is the whole table. -/
theorem tblk_apply (c : Dev nD) (t : Fin cfg0.N) (x : S21x2048.Idx) : tblk m c t x = Tarr m c x := by
  obtain ⟨-, -, -, -, e0, e1, -, -⟩ := idx_facts t
  unfold tblk Tarr iblk
  rw [View.read_apply]
  show V m c main_v22 _ = V m c main_v22 _
  congr 1
  funext a
  apply Fin.ext
  match a with
  | ⟨0, _⟩ => show win0_2.index t (0 : Fin 2) * 21 + 1 * (x 0).val = (x 0).val; rw [e0]; omega
  | ⟨1, _⟩ => show win0_2.index t (1 : Fin 2) * 2048 + 1 * (x 1).val = (x 1).val; rw [e1]; omega

/-- WHAT POINT `t` WRITES BACK is block `t` of `arrOut` of the three arrays as the region finds them. -/
theorem flushed_eq (c : Dev nD) (t : Fin cfg0.N) :
    (dats m 0 c).flushed 3 t
      = ((cfg0.win 3).blk t).view.read (Elt Ideal) (arrOut (Xarr m c) (Garr m c) (Tarr m c)) := by
  show (cfg0.win 3).cut (grid0.coords t) ((dats m 0 c).after 3 t) = _
  rw [after0_3]
  unfold outsAt0
  funext j
  refine (congrFun (out_block c (grid0.coords t) (ms0_0 t) (hs0_0 t) (ms0_1 t) (hs0_1 t) (ms0_2 t) (hs0_2 t)
    (ms0_3 t) (hs0_3 t) (xblk m c t) (gblk m c t) (tblk m c t)) j).trans ?_
  obtain ⟨-, -, -, -, -, -, e31, -⟩ := idx_facts t
  show blockAt (xblk m c t) (gblk m c t) (tblk m c t) ⟨(j 0).val, idx2_lt0 j⟩ ⟨(j 1).val, idx2_lt1 j⟩
    = arrAt (Xarr m c) (Garr m c) (Tarr m c)
        ⟨win0_3.index t (0 : Fin 2) * 2048 + 1 * (j 0).val, _⟩ ⟨win0_3.index t (1 : Fin 2) * 1024 + 1 * (j 1).val, _⟩
  refine rows_congr _ _ _ _ _ _ _ _ _ _ (Fin.ext (by show (j 1).val = win0_3.index t (1 : Fin 2) * 1024 + 1 * (j 1).val; rw [e31]; omega))
    (fun c' => xblk_apply m c t _ _ (by
      show win0_3.index t (0 : Fin 2) * 2048 + 1 * (j 0).val = win0_3.index t (0 : Fin 2) * 2048 + (j 0).val; omega) rfl)
    (gblk_apply m c t _ _ (by
      show win0_3.index t (0 : Fin 2) * 2048 + 1 * (j 0).val = win0_3.index t (0 : Fin 2) * 2048 + (j 0).val; omega) rfl)
    (fun k z => tblk_apply m c t _)

/-- An index of the array is in point `t`'s block iff each coordinate is in the block's range on its axis. -/
theorem mem_blk (t : Fin cfg0.N) (i : S32768x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v25).slice (win0_3.rect t)).set ↔ _
  rw [View.set_slice_whole, Rect.mem_set_unit]
  exact Iff.rfl

/-- Every index of the output is in the block of the point that takes its rows. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 1024 ≤ (i 1).val ∧ (i 1).val < win0_3.index t (1 : Fin 2) * 1024 + 1024
    omega

/-- THE FLATTENED OUTPUT after the region: `arrOut` of the three arrays as the region finds them. -/
theorem final (c : Dev nD) : (dats m 0 c).arrAt 3 cfg0.N = arrOut (Xarr m c) (Garr m c) (Tarr m c) :=
  (dats m 0 c).arrAt_eq_of_cover 3 (arrOut (Xarr m c) (Garr m c) (Tarr m c)) (fun t _ => flushed_eq m c t) cover

/-- The program's result after the reshape that follows the region: the flattened output viewed `[8, 4096, 1024]`. -/
theorem tail_eq (c : Dev nD) :
    Pipeline.afterTail₀ cfgs (dats m) 0 (V0 m) [hostOps1] c main_v26
      = shapeCast S8x4096x1024 (arrOut (Xarr m c) (Garr m c) (Tarr m c)) shapeCasts_S32768x1024_S8x4096x1024 := by
  unfold Pipeline.afterTail₀
  show StableHlo.after hostOps1 _ (Proc.devRef .tc main_v26) = _
  after_results
  have hW : Pipeline.withArrays (cfgs 0).spec c (V0 m c) (fun w => (dats m 0 c).arrAt w (cfgs 0).N)
      (Proc.tc.devRef main_v25) = arrOut (Xarr m c) (Garr m c) (Tarr m c) :=
    (Pipeline.withArrays_arr spec0 launch0.win.arr_inj c _ _ 3).trans (final m c)
  rw [hW]
  rfl

/-- THE KERNEL PROGRAM'S RUN, READ: every weakly fair execution ends with the result at the flattened output
    viewed `[8, 4096, 1024]`, the six arguments unchanged. -/
theorem run : θ_run defs (onTc (τ := τ) (main (F := Ideal))) ⟨m, fun _ => 0, ρ⟩ fun r => ∀ c : Dev nD,
      r.2.mem ((c.tc : Thread nD τ).loc main_v26)
        = shapeCast S8x4096x1024 (arrOut (Xarr m c) (Garr m c) (Tarr m c)) shapeCasts_S32768x1024_S8x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Arr

end
-- ==== Proof.KHost.lean ====
import proofs.«415538_j38431367364877_3_alg».proof.Proof.Gen.KernelIdeal.Frame
import Idealize.ShloMosaic.Lib.StableHlo.Run
import Idealize.ShloMosaic.PureOps.Ideal

/-!
  What the host lines before the region leave in the three arrays the region reads.

  The input is flattened to `[32768, 1024]`; the ids are clipped into `0 … 20` (a maximum with 0, then a
  minimum with 20) and flattened to a column; the table joins, side by side, the 21 gain rows and the 21
  bias rows, each the 20 rows picked out of the 8 parameter rows followed by the base row.
-/

set_option maxRecDepth 16384

noncomputable section

namespace Cert.KernelIdeal.HostPre

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The 21 rows of one parameter table: the 8 given rows read at `min(k, 7)` for `k < 20`, then the base row. -/
def table (w : FVec Ideal S8x1024 .f32) (b : FVec Ideal S1024 .f32) : FVec Ideal S21x1024 .f32 :=
  concatenate S21x1024 0
    [⟨S20x1024, Host.gather gather_S8x1024_S20x1_S20x1024_1_0_n_n_0_1_11024 w
        (broadcastInDim S20x1 ![0] bcast_S20_S20x1_0
          (select (cmpi .slt (minsi (iotaInDim S20 32 0) (broadcastInDim S20 ![] bcast_S_S20 (constantI S_ 32 7#32)))
              (broadcastInDim S20 ![] bcast_S_S20 (constantI S_ 32 0#32)))
            (addi (minsi (iotaInDim S20 32 0) (broadcastInDim S20 ![] bcast_S_S20 (constantI S_ 32 7#32)))
              (broadcastInDim S20 ![] bcast_S_S20 (constantI S_ 32 8#32)))
            (minsi (iotaInDim S20 32 0) (broadcastInDim S20 ![] bcast_S_S20 (constantI S_ 32 7#32)))))⟩,
     ⟨S1x1024, broadcastInDim S1x1024 ![1] bcast_S1024_S1x1024_1 b⟩]
    concatenates_S20x1024_S1x1024_S21x1024_d0

/-- The flattened input is the input in row-major order. -/
theorem V_v23 (c : Dev nD) :
    (V m c main_v23 : S32768x1024.Idx → EReal)
      = shapeCast S32768x1024 (m ((c : Thread nD τ).loc main_arg0) : S8x4096x1024.Idx → EReal)
          shapeCasts_S8x4096x1024_S32768x1024 := by
  dsimp only [Gen.V, Gen.V0]
  simp only [Gen.hostOps0, Gen.hostOps0_1, Gen.hostOps0_2, List.flatten_cons, List.flatten_nil, List.append_nil,
    List.cons_append, List.nil_append]
  after_results
  rfl

/-- The id column is the ids clipped into `0 … 20`, in row-major order. -/
theorem V_v24 (c : Dev nD) :
    (V m c main_v24 : S32768x1.Idx → BitVec 32)
      = shapeCast S32768x1
          (minsi (broadcastInDim S8x4096 ![] bcast_S_S8x4096 (constantI S_ 32 20#32))
            (maxsi (broadcastInDim S8x4096 ![] bcast_S_S8x4096 (constantI S_ 32 0#32))
              (m ((c : Thread nD τ).loc main_arg1) : S8x4096.Idx → BitVec 32)))
          shapeCasts_S8x4096_S32768x1 := by
  dsimp only [Gen.V, Gen.V0]
  simp only [Gen.hostOps0, Gen.hostOps0_1, Gen.hostOps0_2, List.flatten_cons, List.flatten_nil, List.append_nil,
    List.cons_append, List.nil_append]
  after_results
  rfl

set_option maxHeartbeats 4000000 in
/-- The table the region reads: gains in columns 0–1023, biases in columns 1024–2047. -/
theorem V_v22 (c : Dev nD) :
    (V m c main_v22 : S21x2048.Idx → EReal)
      = concatenate S21x2048 1
          [⟨S21x1024, table (m ((c : Thread nD τ).loc main_arg2)) (m ((c : Thread nD τ).loc main_arg4))⟩,
           ⟨S21x1024, table (m ((c : Thread nD τ).loc main_arg3)) (m ((c : Thread nD τ).loc main_arg5))⟩]
          concatenates_S21x1024_S21x1024_S21x2048_d1 := by
  dsimp only [Gen.V, Gen.V0]
  simp only [Gen.hostOps0, Gen.hostOps0_1, Gen.hostOps0_2, List.flatten_cons, List.flatten_nil, List.append_nil,
    List.cons_append, List.nil_append]
  after_results_simp
  rfl

end Cert.KernelIdeal.HostPre

end
-- ==== Proof.RefValue.lean ====
import proofs.«415538_j38431367364877_3_alg».proof.Proof.Gen.ReferenceIdeal.Read
import proofs.«415538_j38431367364877_3_alg».proof.Proof.Spec
import Idealize.ShloMosaic.Lib.ValueIdx
import Idealize.ShloMosaic.Lib.StableHlo.Predicate
import Idealize.ShloMosaic.PureOps.Ideal.Laws

/-!
  The reference's result, read at an entry.

  At `(i, j, c)` the reference computes, for the row `x[i, j, :]`, the mean, the two-pass variance and
  the normalised entry, and scales and shifts it by the entries `(r, c)` of the gain and bias tables,
  `r` being the group id `a[i, j]` as the table lookup reads it: negative ids are first shifted up
  by the table's 21 rows, and the lookup clamps the start row into `0 … 20`.
-/

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- A lookup of rows of a 21-row table at an `[8, 4096, 1]` array of start rows, read at `(i, j, c)`: the table
    at column `c` of the start row `idx[i, j, 0]`, read signed and clamped into `0 … 20`. -/
theorem table_gather {α : Type} (T : S21x1024.Idx → α) (idx : IVec S8x4096x1 32) (i : Fin 8) (j : Fin 4096) (c : Fin 1024) :
    Host.gather gather_S21x1024_S8x4096x1_S8x4096x1024_2_0_n_n_0_2_11024 T idx (ix3 i j c)
      = T (ix2 (⟨min (idx (ix3 i j 0)).toInt.toNat 20, by omega⟩ : Fin 21) c) := by
  unfold Host.gather
  congr 1
  funext a
  refine Fin.ext ?_
  match a with
  | ⟨0, _⟩ =>
    show gather_S21x1024_S8x4096x1_S8x4096x1024_2_0_n_n_0_2_11024.start (ix3 i j c) idx 0
      + gather_S21x1024_S8x4096x1_S8x4096x1024_2_0_n_n_0_2_11024.batchCoord (ix3 i j c) 0
      + gather_S21x1024_S8x4096x1_S8x4096x1024_2_0_n_n_0_2_11024.offCoord (ix3 i j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S21x1024_S8x4096x1_S8x4096x1024_2_0_n_n_0_2_11024.startIndexMap from List.mem_singleton.mpr rfl)]
    have hsi : gather_S21x1024_S8x4096x1_S8x4096x1024_2_0_n_n_0_2_11024.siIdx (ix3 i j c)
        ⟨List.idxOf (0 : Fin 2) gather_S21x1024_S8x4096x1_S8x4096x1024_2_0_n_n_0_2_11024.startIndexMap,
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  | ⟨1, _⟩ =>
    show gather_S21x1024_S8x4096x1_S8x4096x1024_2_0_n_n_0_2_11024.start (ix3 i j c) idx 1
      + gather_S21x1024_S8x4096x1_S8x4096x1024_2_0_n_n_0_2_11024.batchCoord (ix3 i j c) 1
      + gather_S21x1024_S8x4096x1_S8x4096x1024_2_0_n_n_0_2_11024.offCoord (ix3 i j c) 1 = c.val
    rw [GatherDims.batchCoord_eq_zero _ _ _ List.not_mem_nil]
    unfold GatherDims.start
    rw [dif_neg (show (1 : Fin 2) ∉ gather_S21x1024_S8x4096x1_S8x4096x1024_2_0_n_n_0_2_11024.startIndexMap from by decide)]
    unfold GatherDims.offCoord
    rw [dif_pos (show (1 : Fin 2) ∈ gather_S21x1024_S8x4096x1_S8x4096x1024_2_0_n_n_0_2_11024.sKept from by decide)]
    simp only [Nat.zero_add, Nat.add_zero]
    rfl

/-! ## The index maps of the layout operations, on indices given by coordinates -/

theorem e1 (i : Fin 8) (j : Fin 4096) : idx_main_v1 (ix3 i j (0 : Fin 1)) = ix2 i j :=
  funext fun a => Fin.ext (by match a with | ⟨0, _⟩ => rfl | ⟨1, _⟩ => rfl)
theorem e8 (i : Fin 8) (j : Fin 4096) : idx_main_v8 (ix3 i j (0 : Fin 1)) = ix2 i j :=
  funext fun a => Fin.ext (by match a with | ⟨0, _⟩ => rfl | ⟨1, _⟩ => rfl)
theorem e44 (i : Fin 8) (j : Fin 4096) : idx_main_v44 (ix3 i j (0 : Fin 1)) = ix2 i j :=
  funext fun a => Fin.ext (by match a with | ⟨0, _⟩ => rfl | ⟨1, _⟩ => rfl)
theorem e51 (i : Fin 8) (j : Fin 4096) : idx_main_v51 (ix3 i j (0 : Fin 1)) = ix2 i j :=
  funext fun a => Fin.ext (by match a with | ⟨0, _⟩ => rfl | ⟨1, _⟩ => rfl)
theorem e0 (i : Fin 8) (j : Fin 4096) (k : Fin 1024) : idx_main_v0 (ix2 i j) k = ix3 i j k :=
  funext fun a => Fin.ext (by match a with | ⟨0, _⟩ => rfl | ⟨1, _⟩ => rfl | ⟨2, _⟩ => rfl)
theorem e7 (i : Fin 8) (j : Fin 4096) (k : Fin 1024) : idx_main_v7 (ix2 i j) k = ix3 i j k :=
  funext fun a => Fin.ext (by match a with | ⟨0, _⟩ => rfl | ⟨1, _⟩ => rfl | ⟨2, _⟩ => rfl)
theorem e4 (i : Fin 8) (j : Fin 4096) (c : Fin 1024) : idx_main_v4 (ix3 i j c) = ix3 i j (0 : Fin 1) :=
  funext fun a => Fin.ext (by match a with | ⟨0, _⟩ => rfl | ⟨1, _⟩ => rfl | ⟨2, _⟩ => rfl)
theorem e11 (i : Fin 8) (j : Fin 4096) (c : Fin 1024) : idx_main_v11 (ix3 i j c) = ix3 i j (0 : Fin 1) :=
  funext fun a => Fin.ext (by match a with | ⟨0, _⟩ => rfl | ⟨1, _⟩ => rfl | ⟨2, _⟩ => rfl)
theorem e16 (i : Fin 8) (j : Fin 4096) (c : Fin 1024) : idx_main_v16 (ix3 i j c) = ix3 i j (0 : Fin 1) :=
  funext fun a => Fin.ext (by match a with | ⟨0, _⟩ => rfl | ⟨1, _⟩ => rfl | ⟨2, _⟩ => rfl)

variable (x0 : FVec Ideal S8x4096x1024 .f32) (x1 : IVec S8x4096 32) (x2 x3 : FVec Ideal S8x1024 .f32)
  (x4 x5 : FVec Ideal S1024 .f32)

/-- The mean column at `(i, j)` is the mean of the row `x[i, j, :]`. -/
theorem mean_at (i : Fin 8) (j : Fin 4096) :
    val_main_v3 (F := Ideal) x0 (ix3 i j (0 : Fin 1)) = Cert.LN.mean fun k => x0 (ix3 i j k) := by
  rw [val_main_v3_apply, val_main_v1_apply, e1, val_main_v0_apply, val_main_v2_apply, val_main_cst_0_apply,
    val_main_cst_apply]
  simp only [e0]
  unfold Cert.LN.mean
  show Ideal.div (Ideal.ofBits .f32 0x00000000#32 + ∑ k : Fin 1024, x0 (ix3 i j k)) (Ideal.ofBits .f32 0x44800000#32) = _
  rw [Ideal.ofBits_zero_f32, zero_add]

/-- The variance column at `(i, j)` is the two-pass variance of the row `x[i, j, :]`. -/
theorem var_at (i : Fin 8) (j : Fin 4096) :
    val_main_v10 (F := Ideal) x0 (ix3 i j (0 : Fin 1)) = Cert.LN.varTwoPass fun k => x0 (ix3 i j k) := by
  rw [val_main_v10_apply, val_main_v8_apply, e8, val_main_v7_apply, val_main_v9_apply, val_main_cst_2_apply,
    val_main_cst_1_apply]
  simp only [e7, val_main_v6_apply, val_main_v5_apply, val_main_v4_apply, e4, mean_at]
  unfold Cert.LN.varTwoPass
  show Ideal.div (Ideal.ofBits .f32 0x00000000#32 + ∑ k : Fin 1024,
    (x0 (ix3 i j k) - Cert.LN.mean fun k => x0 (ix3 i j k)) * (x0 (ix3 i j k) - Cert.LN.mean fun k => x0 (ix3 i j k)))
    (Ideal.ofBits .f32 0x44800000#32) = _
  rw [Ideal.ofBits_zero_f32, zero_add]

/-- The start row the lookup takes for an id that is the word of `r < 21`: the shift of negative ids does not
    apply and the clamp into `0 … 20` changes nothing. -/
theorem start_row (w : BitVec 32) (r : Fin 21) (hw : w = BitVec.ofNat 32 r.val) :
    min (Scalar.select (IntOp.cmpi .slt w 0#32) (IntOp.addi w 21#32) w).toInt.toNat 20 = r.val := by
  have hr : (BitVec.ofNat 32 r.val).toInt = (r.val : Int) :=
    StableHlo.Predicate.toInt_ofNat_small r.val (by have := r.isLt; omega)
  have h0 : IntOp.cmpi .slt w 0#32 = 0#1 := eq_zero_of_ne_one fun h => by
    have := IntOp.cmpi_slt.1 h
    rw [hw, hr] at this
    simp at this
    omega
  rw [h0, select_zero, hw, hr]
  have := r.isLt
  omega

/-- The reference's result at `(i, j, c)`, when the id `a[i, j]` is the word of `r < 21`. -/
theorem ref_apply (i : Fin 8) (j : Fin 4096) (c : Fin 1024) (r : Fin 21) (hr : x1 (ix2 i j) = BitVec.ofNat 32 r.val) :
    val_main_v54 (F := Ideal) x0 x1 x2 x3 x4 x5 (ix3 i j c)
      = Cert.LN.affine (fun k => x0 (ix3 i j k)) (Cert.LN.varTwoPass fun k => x0 (ix3 i j k))
          (val_main_v29 (F := Ideal) x2 x4 (ix2 r c)) (val_main_v38 (F := Ideal) x3 x5 (ix2 r c)) c := by
  have hrow44 : (⟨min (val_main_v44 (F := Ideal) x1 (ix3 i j (0 : Fin 1))).toInt.toNat 20, by omega⟩ : Fin 21) = r := by
    refine Fin.ext ?_
    show min (val_main_v44 (F := Ideal) x1 (ix3 i j (0 : Fin 1))).toInt.toNat 20 = r.val
    rw [val_main_v44_apply, e44, val_main_v43_apply, val_main_v40_apply, val_main_v42_apply, val_main_v39_apply,
      val_main_v41_apply, val_main_c_8_apply, val_main_c_9_apply]
    exact start_row _ r hr
  have hrow51 : (⟨min (val_main_v51 (F := Ideal) x1 (ix3 i j (0 : Fin 1))).toInt.toNat 20, by omega⟩ : Fin 21) = r := by
    refine Fin.ext ?_
    show min (val_main_v51 (F := Ideal) x1 (ix3 i j (0 : Fin 1))).toInt.toNat 20 = r.val
    rw [val_main_v51_apply, e51, val_main_v50_apply, val_main_v47_apply, val_main_v49_apply, val_main_v46_apply,
      val_main_v48_apply, val_main_c_10_apply, val_main_c_11_apply]
    exact start_row _ r hr
  rw [val_main_v54_apply, val_main_v53_apply, val_main_v17_apply, val_main_v12_apply, val_main_v11_apply, e11, mean_at,
    val_main_v16_apply, e16, val_main_v15_apply, val_main_v14_apply, var_at, val_main_v13_apply, val_main_cst_3_apply]
  unfold val_main_v45 val_main_v52
  rw [table_gather, table_gather, hrow44, hrow51]
  rfl

end Cert.ReferenceIdeal.RefValue

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.RowLaw.lean ====
import proofs.«415538_j38431367364877_3_alg».proof.Proof.Spec
import proofs.«415538_j38431367364877_3_alg».proof.Proof.LibReal
import Mathlib.Tactic.Ring
import Mathlib.Tactic.Positivity
import Mathlib.Tactic.NormNum

/-!
  The two variances of a real row agree, and a one-hot weighted sum selects one term.

  For real entries `a k` with `S = Σ a k`, `μ = S / n`:
  `Σ (a k − μ)² = Σ a k² − 2 μ S + n μ² = Σ a k² − n μ²`, so the mean squared deviation is
  `(Σ a k²) / n − μ²`; being a mean of squares it is non-negative, so clamping it at zero changes
  nothing.  On the extended reals the same holds once every entry is a real number, because
  every operation involved is then the real one.
-/

noncomputable section

open scoped BigOperators

namespace Cert.LN

open Idealize.ShloMosaic Cert.LibReal

/-- The word `1024.0` denotes the real number 1024. -/
theorem nWord_eq : nWord = ((1024 : ℝ) : EReal) := by
  simp [Ideal.ofBits, Ideal.ieee, -EReal.coe_mul]; norm_num

/-- The word `+0.0` denotes zero. -/
theorem zeroWord_eq : zeroWord = 0 := by
  simp [Ideal.ofBits, Ideal.ieee]

/-- On real numbers: the mean squared deviation is the mean square less the squared mean. -/
theorem real_var (a : Fin 1024 → ℝ) :
    (∑ k, (a k - (∑ k, a k) * (1 / 1024)) * (a k - (∑ k, a k) * (1 / 1024))) * (1 / 1024)
      = (∑ k, a k * a k) * (1 / 1024) - ((∑ k, a k) * (1 / 1024)) * ((∑ k, a k) * (1 / 1024)) := by
  have h : ∀ k, (a k - (∑ k, a k) * (1 / 1024)) * (a k - (∑ k, a k) * (1 / 1024))
      = a k * a k - 2 * ((∑ k, a k) * (1 / 1024)) * a k + ((∑ k, a k) * (1 / 1024)) * ((∑ k, a k) * (1 / 1024)) :=
    fun k => by ring
  rw [Finset.sum_congr rfl fun k _ => h k, Finset.sum_add_distrib, Finset.sum_sub_distrib,
    ← Finset.mul_sum, Finset.sum_const, Finset.card_univ, Fintype.card_fin]
  simp only [nsmul_eq_mul]
  push_cast
  ring

/-- On real numbers the mean squared deviation is non-negative. -/
theorem real_var_nonneg (a : Fin 1024 → ℝ) :
    0 ≤ (∑ k, (a k - (∑ k, a k) * (1 / 1024)) * (a k - (∑ k, a k) * (1 / 1024))) * (1 / 1024) :=
  mul_nonneg (Finset.sum_nonneg fun k _ => mul_self_nonneg _) (by norm_num)

/-- For a row of real numbers the one-pass variance, clamped at zero, is the two-pass variance. -/
theorem varOnePass_eq_varTwoPass (x : Fin 1024 → EReal) (hx : ∀ k, IsReal (x k)) :
    varOnePass x = varTwoPass x := by
  choose a ha using hx
  obtain rfl : x = fun k => (a k : EReal) := funext ha
  unfold varOnePass varTwoPass mean
  rw [zeroWord_eq, nWord_eq]
  simp only [Ideal.div_coe (by norm_num : (1024 : ℝ) ≠ 0), ← coe_sum, ← EReal.coe_mul, ← EReal.coe_sub]
  rw [real_var, ← EReal.coe_zero, ← (EReal.coe_strictMono.monotone).map_max]
  congr 1
  exact max_eq_left (by rw [← real_var]; exact real_var_nonneg a)

/-- A weighted sum whose weights are `1` at one place and `0` elsewhere is the term at that place
    (on the extended reals `0 · t = 0` and `1 · t = t` for every `t`, infinite ones included). -/
theorem onehot_sum {n : ℕ} (w T : Fin n → EReal) (r : Fin n) (h1 : w r = 1) (h0 : ∀ k, k ≠ r → w k = 0) :
    ∑ k, w k * T k = T r := by
  rw [Finset.sum_eq_single r (fun k _ hk => by rw [h0 k hk, zero_mul])
    (fun h => absurd (Finset.mem_univ r) h), h1, one_mul]

end Cert.LN

end
-- ==== Proof.PreFacts.lean ====
import proofs.«415538_j38431367364877_3_alg».proof.Pre_finite_inputs
import proofs.«415538_j38431367364877_3_alg».proof.Proof.LibReal
import Idealize.ShloMosaic.Lib.ReduceAll
import Idealize.ShloMosaic.Lib.ValueIdx
import Idealize.ShloMosaic.Lib.StableHlo.Predicate
import Idealize.ShloMosaic.PureOps.Ideal.Laws

/-!
  What the precondition says of the inputs.

  The precondition is a conjunction of six `all` tests that together must come out true:
  `|v| < +∞` at every entry of each of the five float arrays, and `0 ≤ a ∧ a ≤ 20` (signed) at
  every entry of the integer array of group ids.  On the extended reals `|v| < +∞` holds exactly
  when `v` is a real number; a 32-bit word between 0 and 20 read signed is the word of a number
  below 21.
-/

noncomputable section

namespace Cert.PreFacts

open Idealize.ShloMosaic Idealize.ShloMosaic.ValueIdx Cert.LibReal Cert.Pre_finite_inputs

variable [Cert.Pre_finite_inputs.Facts]
open Cert.Pre_finite_inputs.Facts

instance : Subsingleton S_.Idx := ⟨fun a b => funext fun d => d.elim0⟩

/-- The pattern `0x7F800000` denotes `+∞`. -/
theorem inf_word : Ideal.ofBits .f32 0x7F800000#32 = ⊤ := by
  simp [Ideal.ofBits, Ideal.ieee]

/-- An extended real whose absolute value is below `+∞` is a real number: `|⊥| = |⊤| = ⊤`. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  simp only [Ideal.cmpf_def, Ideal.hostAbsf_def, Ideal.absf_def, Ideal.ofBits_def, inf_word, Ideal.cmp] at h
  induction x using EReal.rec with
  | bot => simp at h
  | coe r => exact ⟨r, rfl⟩
  | top => simp at h

/-- A word that is between 0 and 20 when read signed is the word of a number below 21. -/
theorem word_of_range (w : BitVec 32)
    (h : IntOp.andi (IntOp.cmpi .sge w 0#32) (IntOp.cmpi .sle w 20#32) = 1#1) :
    ∃ r : Fin 21, w = BitVec.ofNat 32 r.val := by
  obtain ⟨h0, h1⟩ := IntOp.andi_eq_one.1 h
  have h0' : (0 : Int) ≤ w.toInt := by simpa using IntOp.cmpi_sge.1 h0
  have h1' : w.toInt ≤ 20 := by simpa using IntOp.cmpi_sle.1 h1
  refine ⟨⟨w.toInt.toNat, by omega⟩, BitVec.eq_of_toInt_eq ?_⟩
  rw [StableHlo.Predicate.toInt_ofNat_small _ (by show w.toInt.toNat < 2 ^ 31; omega)]
  show w.toInt = ((w.toInt.toNat : ℕ) : Int)
  omega

variable (a0 : FVec Ideal S8x4096x1024 .f32) (a1 : IVec S8x4096 32) (a2 a3 : FVec Ideal S8x1024 .f32)
  (a4 a5 : FVec Ideal S1024 .f32)

/-- Under the precondition every entry of the first input is a real number and every group id is
    the word of a number below 21. -/
theorem of_pre (h : Cert.Pre_finite_inputs.fn (F := Ideal) a0 a1 a2 a3 a4 a5 = fun _ => 1#1) :
    (∀ i, IsReal (a0 i)) ∧ (∀ i, ∃ r : Fin 21, a1 i = BitVec.ofNat 32 r.val) := by
  have h0 : Cert.Pre_finite_inputs.fn (F := Ideal) a0 a1 a2 a3 a4 a5 ix0 = 1#1 := congrFun h ix0
  dsimp only [Cert.Pre_finite_inputs.fn, Cert.Pre_finite_inputs.fn_part1] at h0
  obtain ⟨h0, hI⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  refine ⟨fun i => isReal_of_abs_lt (a0 i) (Host.reduce_andi_all _ _ _ _ _ h0 i), fun i => ?_⟩
  exact word_of_range (a1 i) (Host.reduce_andi_all _ _ _ _ _ hI i)

end Cert.PreFacts

end
-- ==== Proof.Bridge.lean ====
import proofs.«415538_j38431367364877_3_alg».proof.Defs
import proofs.«415538_j38431367364877_3_alg».proof.Proof.KArray
import proofs.«415538_j38431367364877_3_alg».proof.Proof.KHost
import proofs.«415538_j38431367364877_3_alg».proof.Proof.RefValue
import proofs.«415538_j38431367364877_3_alg».proof.Proof.RowLaw
import proofs.«415538_j38431367364877_3_alg».proof.Proof.PreFacts

/-!
  The two programs compute the same array.

  Entry `(i, j, q)` of the kernel program's result is entry `(4096 i + j, q)` of the flattened output,
  which is the output entry of the row `x[i, j, :]` with the ONE-pass variance, scaled and shifted by two
  one-hot weighted sums over the 21 rows of the gain and bias tables, the weights testing the CLIPPED id
  against `0 … 20`.  The reference's entry is the output entry of the same row with the TWO-pass
  variance, scaled and shifted by the tables' rows at the id as the lookup reads it.

  Under the precondition the row is a row of real numbers, so the two variances agree; and the id is the
  word of some `r < 21`, so clipping leaves it alone, each one-hot sum is its table's row `r`, and the
  lookup reads row `r` too.  Both programs build the tables by the same operations of the same
  arguments.
-/

set_option maxRecDepth 16384

noncomputable section

open scoped BigOperators

namespace Cert.Bridge

open Idealize.ShloMosaic Idealize.ShloMosaic.ValueIdx Idealize.ShloMosaic.TcCoe Idealize.SL.Sem
open Cert.KernelIdeal Cert.KernelIdeal.Gen

/-! ## Reshapes between `[8, 4096, …]` and `[32768, …]` at an index -/

theorem flat_row {α : Type} (Y : S8x4096x1024.Idx → α) (i : Fin 8) (j : Fin 4096) (c' : Fin 1024) (R : Fin 32768)
    (hR : R.val = i.val * 4096 + j.val) :
    shapeCast S32768x1024 Y shapeCasts_S8x4096x1024_S32768x1024 (ix2 R c') = Y (ix3 i j c') :=
  shapeCast_apply Y shapeCasts_S8x4096x1024_S32768x1024 (ix2 R c') (ix3 i j c') (by
    rw [Shape.rowMajor_val_three, Shape.rowMajor_val_two]
    show (i.val * 4096 + j.val) * 1024 + c'.val = R.val * 1024 + c'.val
    rw [hR])

theorem flat_col {α : Type} (A : S8x4096.Idx → α) (i : Fin 8) (j : Fin 4096) (R : Fin 32768)
    (hR : R.val = i.val * 4096 + j.val) :
    shapeCast S32768x1 A shapeCasts_S8x4096_S32768x1 (ix2 R (0 : Fin 1)) = A (ix2 i j) :=
  shapeCast_apply A shapeCasts_S8x4096_S32768x1 (ix2 R (0 : Fin 1)) (ix2 i j) (by
    rw [Shape.rowMajor_val_two, Shape.rowMajor_val_two]
    show i.val * 4096 + j.val = R.val * 1 + 0
    rw [hR]; omega)

theorem unflat {α : Type} (Z : S32768x1024.Idx → α) (i : Fin 8) (j : Fin 4096) (q : Fin 1024) (R : Fin 32768)
    (hR : R.val = i.val * 4096 + j.val) :
    shapeCast S8x4096x1024 Z shapeCasts_S32768x1024_S8x4096x1024 (ix3 i j q) = Z (ix2 R q) :=
  shapeCast_apply Z shapeCasts_S32768x1024_S8x4096x1024 (ix3 i j q) (ix2 R q) (by
    rw [Shape.rowMajor_val_three, Shape.rowMajor_val_two]
    show R.val * 1024 + q.val = (i.val * 4096 + j.val) * 1024 + q.val
    rw [hR])

/-! ## Words below 21 -/

/-- Clipping into `0 … 20` leaves the word of a number below 21 alone. -/
theorem clip_small : ∀ r : Fin 21,
    IntOp.minsi 20#32 (IntOp.maxsi 0#32 (BitVec.ofNat 32 r.val)) = BitVec.ofNat 32 r.val := by decide

/-- The words of two numbers below 21 are equal only if the numbers are. -/
theorem word_inj (r k : Fin 21) (h : BitVec.ofNat 32 r.val = BitVec.ofNat 32 k.val) : r = k := by
  have := congrArg BitVec.toNat h
  simp only [BitVec.toNat_ofNat] at this
  exact Fin.ext (by have := r.isLt; have := k.isLt; omega)

/-! ## The table the kernel reads, by halves -/

/-- Columns 0–1023 of the joined table are the first table's. -/
theorem join_left {α : Type} (A B : S21x1024.Idx → α) (k : Fin 21) (q : Fin 1024) :
    concatenate S21x2048 1 [⟨S21x1024, A⟩, ⟨S21x1024, B⟩] concatenates_S21x1024_S21x1024_S21x2048_d1
      (ix2 k (⟨q.val, by omega⟩ : Fin 2048)) = A (ix2 k q) :=
  concatenate_pair_apply_left 1 A B concatenates_S21x1024_S21x1024_S21x2048_d1 _ rfl (ix2 k q)
    (fun b => by match b with | ⟨0, _⟩ => rfl | ⟨1, _⟩ => rfl)

/-- Columns 1024–2047 of the joined table are the second table's. -/
theorem join_right {α : Type} (A B : S21x1024.Idx → α) (k : Fin 21) (q : Fin 1024) :
    concatenate S21x2048 1 [⟨S21x1024, A⟩, ⟨S21x1024, B⟩] concatenates_S21x1024_S21x1024_S21x2048_d1
      (ix2 k (⟨1024 + q.val, by omega⟩ : Fin 2048)) = B (ix2 k q) :=
  concatenate_pair_apply_right 1 A B concatenates_S21x1024_S21x1024_S21x2048_d1 _ rfl rfl (ix2 k q)
    (fun b hb => by match b with | ⟨0, _⟩ => rfl | ⟨1, _⟩ => exact absurd rfl hb)
    (by show q.val + 1024 = 1024 + q.val; omega)

/-- The kernel program and the reference build one parameter table by the same operations. -/
theorem table_eq (w : FVec Ideal S8x1024 .f32) (b : FVec Ideal S1024 .f32) :
    Cert.KernelIdeal.HostPre.table w b = Cert.ReferenceIdeal.Read.val_main_v29 (F := Ideal) w b := rfl

theorem table_eq' (w : FVec Ideal S8x1024 .f32) (b : FVec Ideal S1024 .f32) :
    Cert.KernelIdeal.HostPre.table w b = Cert.ReferenceIdeal.Read.val_main_v38 (F := Ideal) w b := rfl

/-! ## The bridge -/

variable [Cert.Pre_finite_inputs.Facts]
variable (m : (ℓ : Loc nD τ sig) → Buf (Elt Ideal) ℓ)

/-- Under the precondition the kernel program's result array is the reference's function of the same arguments. -/
theorem result_eq (c : Dev nD)
    (hpre : Cert.Pre_finite_inputs.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) = fun _ => 1#1) :
    shapeCast S8x4096x1024 (Cert.KernelIdeal.Arr.arrOut (Cert.KernelIdeal.Arr.Xarr m c) (Cert.KernelIdeal.Arr.Garr m c)
        (Cert.KernelIdeal.Arr.Tarr m c)) shapeCasts_S32768x1024_S8x4096x1024
      = Cert.ReferenceIdeal.Read.val_main_v54 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) := by
  obtain ⟨hreal, hid⟩ := Cert.PreFacts.of_pre _ _ _ _ _ _ hpre
  funext y
  obtain ⟨i, j, q, rfl⟩ : ∃ (i : Fin 8) (j : Fin 4096) (q : Fin 1024), y = ix3 i j q := ⟨y 0, y 1, y 2, eq_ix3 y⟩
  obtain ⟨r, hr⟩ := hid (ix2 i j)
  have hR : i.val * 4096 + j.val < 32768 := by have := i.isLt; have := j.isLt; omega
  rw [unflat _ i j q ⟨i.val * 4096 + j.val, hR⟩ rfl,
    Cert.ReferenceIdeal.RefValue.ref_apply _ _ _ _ _ _ i j q r hr]
  show Cert.KernelIdeal.Arr.arrAt (Cert.KernelIdeal.Arr.Xarr m c) (Cert.KernelIdeal.Arr.Garr m c) (Cert.KernelIdeal.Arr.Tarr m c)
    ⟨i.val * 4096 + j.val, hR⟩ q = _
  unfold Cert.KernelIdeal.Arr.arrAt
  have hX : ∀ c' : Fin 1024, Cert.KernelIdeal.Arr.Xarr m c (ix2 ⟨i.val * 4096 + j.val, hR⟩ c')
      = (m ((c.tc : Thread nD τ).loc main_arg0) : S8x4096x1024.Idx → EReal) (ix3 i j c') := fun c' => by
    unfold Cert.KernelIdeal.Arr.Xarr
    rw [Cert.KernelIdeal.HostPre.V_v23]
    exact flat_row _ i j c' _ rfl
  have hG : Cert.KernelIdeal.Arr.Garr m c (ix2 ⟨i.val * 4096 + j.val, hR⟩ 0) = BitVec.ofNat 32 r.val := by
    unfold Cert.KernelIdeal.Arr.Garr
    rw [Cert.KernelIdeal.HostPre.V_v24, flat_col _ i j _ rfl]
    show IntOp.minsi 20#32 (IntOp.maxsi 0#32 ((m ((c.tc : Thread nD τ).loc main_arg1) : S8x4096.Idx → BitVec 32) (ix2 i j))) = _
    rw [hr, clip_small]
  have hT0 : ∀ k : Fin 21, Cert.KernelIdeal.Arr.Tarr m c (ix2 k (⟨q.val, by omega⟩ : Fin 2048))
      = Cert.ReferenceIdeal.Read.val_main_v29 (F := Ideal) (m ((c.tc : Thread nD τ).loc main_arg2))
          (m ((c.tc : Thread nD τ).loc main_arg4)) (ix2 k q) := fun k => by
    unfold Cert.KernelIdeal.Arr.Tarr
    rw [Cert.KernelIdeal.HostPre.V_v22, join_left, table_eq]
  have hT1 : ∀ k : Fin 21, Cert.KernelIdeal.Arr.Tarr m c (ix2 k (⟨1024 + q.val, by omega⟩ : Fin 2048))
      = Cert.ReferenceIdeal.Read.val_main_v38 (F := Ideal) (m ((c.tc : Thread nD τ).loc main_arg3))
          (m ((c.tc : Thread nD τ).loc main_arg5)) (ix2 k q) := fun k => by
    unfold Cert.KernelIdeal.Arr.Tarr
    rw [Cert.KernelIdeal.HostPre.V_v22, join_right, table_eq']
  simp only [hX, hG, hT0, hT1]
  rw [Cert.LN.varOnePass_eq_varTwoPass _ (fun k => hreal (ix3 i j k)),
    Cert.LN.onehot_sum _ _ r (if_pos rfl) (fun k hk => if_neg fun h => hk (word_inj r k h).symm),
    Cert.LN.onehot_sum _ _ r (if_pos rfl) (fun k hk => if_neg fun h => hk (word_inj r k h).symm)]

end Cert.Bridge

end
-- ==== Proof.lean ====
/- A row-wise layer normalisation with per-row affine parameters chosen by a group id, two ways.

   Both programs take x : [8, 4096, 1024], group ids a : [8, 4096], eight rows of gains and of biases, and one base
   row of each.  A parameter table of 21 rows is built from them: row k < 20 is parameter row min(k, 7), row 20 the
   base row.  For every row x[i, j, :] both form the mean and a variance, normalise by rsqrt(variance + ε), and scale
   and shift by the table rows the id a[i, j] names.

   They differ in two places.  The kernel takes the variance in one pass, E[x²] − mean², clamped below at zero;
   the reference takes E[(x − mean)²].  On a row of real numbers these are one number: the second expands to the
   first, and being a mean of squares it is not negative, so the clamp does nothing.  And the kernel picks the
   table rows by a product with the one-hot vector of the id clipped into 0 … 20, where the reference looks the
   row up, shifting a negative id up by 21 and clamping the start row.  For an id in 0 … 20 the clip, the shift and
   the clamp all do nothing, the one-hot product is the row itself (0 · t = 0 and 1 · t = t on every extended
   real), and both read the same row.  The precondition supplies both facts: every float entry is finite, and
   every id lies in 0 … 20.

   The kernel works on the arrays flattened to 32768 rows, sixteen blocks of 2048 rows, each walked in eight
   chunks of 256 rows; a row's result depends on that row alone, so chunks, blocks and the flattening only
   rearrange which row is where. -/
import proofs.«415538_j38431367364877_3_alg».proof.Defs
import proofs.«415538_j38431367364877_3_alg».proof.Proof.Gen.Kernel
import proofs.«415538_j38431367364877_3_alg».proof.Proof.Gen.Kernel.Skeleton
import proofs.«415538_j38431367364877_3_alg».proof.Proof.Gen.Kernel.Loops
import proofs.«415538_j38431367364877_3_alg».proof.Proof.Gen.Kernel.Launch
import proofs.«415538_j38431367364877_3_alg».proof.Proof.Gen.Kernel.Points
import proofs.«415538_j38431367364877_3_alg».proof.Proof.Gen.Kernel.Frame
import proofs.«415538_j38431367364877_3_alg».proof.Proof.Gen.KernelIdeal
import proofs.«415538_j38431367364877_3_alg».proof.Proof.Gen.KernelIdeal.Skeleton
import proofs.«415538_j38431367364877_3_alg».proof.Proof.Gen.KernelIdeal.Loops
import proofs.«415538_j38431367364877_3_alg».proof.Proof.Gen.KernelIdeal.Launch
import proofs.«415538_j38431367364877_3_alg».proof.Proof.Gen.KernelIdeal.Points
import proofs.«415538_j38431367364877_3_alg».proof.Proof.Gen.KernelIdeal.Frame
import proofs.«415538_j38431367364877_3_alg».proof.Proof.Gen.ReferenceIdeal
import proofs.«415538_j38431367364877_3_alg».proof.Proof.Gen.ReferenceIdeal.Run
import proofs.«415538_j38431367364877_3_alg».proof.Proof.Gen.ReferenceIdeal.Read
import proofs.«415538_j38431367364877_3_alg».proof.Proof.Gen.Pre_finite_inputs
import proofs.«415538_j38431367364877_3_alg».proof.Proof.Bridge
import Idealize.ShloMosaic.Adequacy
import Idealize.ShloMosaic.Init

noncomputable section

namespace Cert.Proof

open Idealize.ShloMosaic Idealize.SL.Sem Cert.Kernel

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both idealized programs end with the same
    result array: the kernel program's is the flattened output viewed [8, 4096, 1024], the reference's its composed
    term, and the two are one function of the arguments. -/
theorem algebraic : Cert.algebraic_KernelIdeal_ReferenceIdeal := by
  intro m ρ m' ρ' hpre hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2]
  exact (Cert.Bridge.result_eq m c (hpre c)).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
